-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x256 .f32) (main_arg1 : IVec S2x1600000 32) (main_arg2 : FVec F S1600000 .f32) (main_arg3 : FVec F S256x128 .f32) (main_arg4 : FVec F S128 .f32) (main_arg5 : FVec F S128x64 .f32) (main_arg6 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x256 : Shape := ⟨2, ![50000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000x1 : Shape := ⟨2, ![1600000, 1]⟩
abbrev S50000x128 : Shape := ⟨2, ![50000, 128]⟩
abbrev S1000x256 : Shape := ⟨2, ![1000, 256]⟩
abbrev S1000x128 : Shape := ⟨2, ![1000, 128]⟩
abbrev S_ : Shape := ⟨0, ![]⟩
abbrev S1600000x128 : Shape := ⟨2, ![1600000, 128]⟩
abbrev S8000x128 : Shape := ⟨2, ![8000, 128]⟩
abbrev S8000x1 : Shape := ⟨2, ![8000, 1]⟩
abbrev S1x128 : Shape := ⟨2, ![1, 128]⟩
abbrev S50000x64 : Shape := ⟨2, ![50000, 64]⟩
abbrev S1000x64 : Shape := ⟨2, ![1000, 64]⟩
abbrev S1600000x64 : Shape := ⟨2, ![1600000, 64]⟩
abbrev S8000x64 : Shape := ⟨2, ![8000, 64]⟩
abbrev S1x64 : Shape := ⟨2, ![1, 64]⟩

abbrev nBuf : Space → Nat
  | .hbm => 45
  | .vmem => 28
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S1600000x1, .f32⟩
  | .hbm, ⟨12, _⟩ => ⟨S50000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S50000x128, .f32⟩
  | .hbm, ⟨25, _⟩ => ⟨S1600000x1, .i32⟩
  | .hbm, ⟨26, _⟩ => ⟨S50000x128, .f32⟩
  | .hbm, ⟨27, _⟩ => ⟨S1x128, .f32⟩
  | .hbm, ⟨28, _⟩ => ⟨S50000x64, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S50000x64, .f32⟩
  | .hbm, ⟨41, _⟩ => ⟨S1600000x1, .i32⟩
  | .hbm, ⟨42, _⟩ => ⟨S50000x64, .f32⟩
  | .hbm, ⟨43, _⟩ => ⟨S1x64, .f32⟩
  | .hbm, ⟨44, _⟩ => ⟨S50000x64, .f32⟩
  | .local _ .vmem, ⟨0, _⟩ => ⟨S1000x256, .f32⟩
  | .local _ .vmem, ⟨1, _⟩ => ⟨S1000x256, .f32⟩
  | .local _ .vmem, ⟨2, _⟩ => ⟨S256x128, .f32⟩
  | .local _ .vmem, ⟨3, _⟩ => ⟨S1000x128, .f32⟩
  | .local _ .vmem, ⟨4, _⟩ => ⟨S1000x128, .f32⟩
  | .local _ .vmem, ⟨5, _⟩ => ⟨S8000x128, .f32⟩
  | .local _ .vmem, ⟨6, _⟩ => ⟨S8000x128, .f32⟩
  | .local _ .vmem, ⟨7, _⟩ => ⟨S8000x1, .f32⟩
  | .local _ .vmem, ⟨8, _⟩ => ⟨S8000x1, .f32⟩
  | .local _ .vmem, ⟨9, _⟩ => ⟨S8000x128, .f32⟩
  | .local _ .vmem, ⟨10, _⟩ => ⟨S8000x128, .f32⟩
  | .local _ .vmem, ⟨11, _⟩ => ⟨S1000x128, .f32⟩
  | .local _ .vmem, ⟨12, _⟩ => ⟨S1000x128, .f32⟩
  | .local _ .vmem, ⟨13, _⟩ => ⟨S1x128, .f32⟩
  | .local _ .vmem, ⟨14, _⟩ => ⟨S128x64, .f32⟩
  | .local _ .vmem, ⟨15, _⟩ => ⟨S1000x64, .f32⟩
  | .local _ .vmem, ⟨16, _⟩ => ⟨S1000x64, .f32⟩
  | .local _ .vmem, ⟨17, _⟩ => ⟨S8000x64, .f32⟩
  | .local _ .vmem, ⟨18, _⟩ => ⟨S8000x64, .f32⟩
  | .local _ .vmem, ⟨19, _⟩ => ⟨S8000x1, .f32⟩
  | .local _ .vmem, ⟨20, _⟩ => ⟨S8000x1, .f32⟩
  | .local _ .vmem, ⟨21, _⟩ => ⟨S8000x64, .f32⟩
  | .local _ .vmem, ⟨22, _⟩ => ⟨S8000x64, .f32⟩
  | .local _ .vmem, ⟨23, _⟩ => ⟨S1000x64, .f32⟩
  | .local _ .vmem, ⟨24, _⟩ => ⟨S1000x64, .f32⟩
  | .local _ .vmem, ⟨25, _⟩ => ⟨S1x64, .f32⟩
  | .local _ .vmem, ⟨26, _⟩ => ⟨S1000x64, .f32⟩
  | .local _ .vmem, ⟨27, _⟩ => ⟨S1000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S1600000_S1600000x1 : S1600000.ShapeCasts S1600000x1
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1000x128_S1000x128_0_0 : ∀ a, (![0, 0] : Fin 2 → Nat) a + S1000x128.size a ≤ S1000x128.size a
  h_S1000x128 : 0 < S1000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x128 : S8000x1.Broadcasts S8000x128
  bcast_S_S50000x128 : S_.BroadcastsInDim S50000x128 (![] : Fin 0 → Fin S50000x128.rank)
  shapeCasts_S128_S1x128 : S128.ShapeCasts S1x128
  shapeCasts_S1000x128_S1000x128 : S1000x128.ShapeCasts S1000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1000x128 : S1x128.Broadcasts S1000x128
  inb_S128x64_S128x64_0_0 : ∀ a, (![0, 0] : Fin 2 → Nat) a + S128x64.size a ≤ S128x64.size a
  h_S128x64 : 0 < S128x64.numel
  inb_S1000x64_S1000x64_0_0 : ∀ a, (![0, 0] : Fin 2 → Nat) a + S1000x64.size a ≤ S1000x64.size a
  h_S1000x64 : 0 < S1000x64.numel
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  broadcasts_S8000x1_S8000x64 : S8000x1.Broadcasts S8000x64
  bcast_S_S50000x64 : S_.BroadcastsInDim S50000x64 (![] : Fin 0 → Fin S50000x64.rank)
  shapeCasts_S64_S1x64 : S64.ShapeCasts S1x64
  shapeCasts_S1000x64_S1000x64 : S1000x64.ShapeCasts S1000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  dot_S1000x256_S256x128_S1000x128_1_0_0_1_n_n_wf : DotDims.WF S1000x256 S256x128 S1000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S1000x128_S128x64_S1000x64_1_0_0_1_n_n_wf : DotDims.WF S1000x128 S128x64 S1000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S50000x256.size a
  hwx0_0 : ∀ i : grid0.Coords, EltTy.bits .f32 = 32 ∨ (Rect.block (s := S50000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S1600000x128.size a
  hwx1_0 : ∀ i : grid1.Coords, EltTy.bits .f32 = 32 ∨ (Rect.block (s := S1600000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x128.size a ≤ S1600000x128.size a
  hwx1_2 : ∀ i : grid1.Coords, EltTy.bits .f32 = 32 ∨ (Rect.block (s := S1600000x128) S8000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x128.size a ≤ S50000x128.size a
  hwx2_0 : ∀ i : grid2.Coords, EltTy.bits .f32 = 32 ∨ (Rect.block (s := S50000x128) S1000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1000x64.size a ≤ S50000x64.size a
  hwx2_3 : ∀ i : grid2.Coords, EltTy.bits .f32 = 32 ∨ (Rect.block (s := S50000x64) S1000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S1600000x64.size a
  hwx3_0 : ∀ i : grid3.Coords, EltTy.bits .f32 = 32 ∨ (Rect.block (s := S1600000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S1600000x1.size a
  hwx3_1 : ∀ i : grid3.Coords, EltTy.bits .f32 = 32 ∨ (Rect.block (s := S1600000x1) S8000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8000x64.size a ≤ S1600000x64.size a
  hwx3_2 : ∀ i : grid3.Coords, EltTy.bits .f32 = 32 ∨ (Rect.block (s := S1600000x64) S8000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S50000x64.size a
  hwx4_0 : ∀ i : grid4.Coords, EltTy.bits .f32 = 32 ∨ (Rect.block (s := S50000x64) S1000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x64.size a ≤ S50000x64.size a
  hwx4_2 : ∀ i : grid4.Coords, EltTy.bits .f32 = 32 ∨ (Rect.block (s := S50000x64) S1000x64.size (cc4_transform_2 i) (hinb4_2 i)).WholeWords (EltTy.packing .f32)

variable [Facts₀]

def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S1000x128_S128x64_S1000x64_1_0_0_1_n_n : DotDims S1000x128 S128x64 S1000x64 where
  lhsContracting := [1]
  rhsContracting := [0]
  lhsNonContracting := [0]
  rhsNonContracting := [1]
  lhsBatch := []
  rhsBatch := []
  wf := dot_S1000x128_S128x64_S1000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S8000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v16) S1000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v25) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v4) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S8000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v29) S1000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v30) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v31) S1000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S50000x128 : Shape := ⟨2, ![50000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S50000x64 : Shape := ⟨2, ![50000, 64]⟩
abbrev S1600000x64 : Shape := ⟨2, ![1600000, 64]⟩
abbrev S1x64 : Shape := ⟨2, ![1, 64]⟩

abbrev nBuf : Space → Nat
  | .hbm => 54
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S50000x128, .f32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S1600000x1, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S50000x128, .f32⟩
  | .hbm, ⟨26, _⟩ => ⟨S1600000x1, .i32⟩
  | .hbm, ⟨27, _⟩ => ⟨S50000x128, .f32⟩
  | .hbm, ⟨28, _⟩ => ⟨S1x128, .f32⟩
  | .hbm, ⟨29, _⟩ => ⟨S50000x128, .f32⟩
  | .hbm, ⟨30, _⟩ => ⟨S50000x128, .f32⟩
  | .hbm, ⟨31, _⟩ => ⟨S_, .f32⟩
  | .hbm, ⟨32, _⟩ => ⟨S50000x128, .f32⟩
  | .hbm, ⟨33, _⟩ => ⟨S50000x128, .f32⟩
  | .hbm, ⟨34, _⟩ => ⟨S50000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x64, .f32⟩
  | .hbm, ⟨44, _⟩ => ⟨S1600000x1, .f32⟩
  | .hbm, ⟨45, _⟩ => ⟨S1600000x64, .f32⟩
  | .hbm, ⟨46, _⟩ => ⟨S1600000x64, .f32⟩
  | .hbm, ⟨47, _⟩ => ⟨S_, .f32⟩
  | .hbm, ⟨48, _⟩ => ⟨S50000x64, .f32⟩
  | .hbm, ⟨49, _⟩ => ⟨S1600000x1, .i32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x256_S256x128_S50000x128_1_0_0_1_n_n_wf : DotDims.WF S50000x256 S256x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.Spec.lean ====
/-
  The two-layer graph convolution as whole-array functions over the extended reals.

  One layer is: a dense product h = x · W; a gather of h's rows by the source node of each edge; each gathered row
  scaled by its edge's weight; the scaled rows summed into the row of the edge's destination node; a bias added to
  every row.  Between the layers the rows pass through max(·, 0).  The gather and the scatter-add are the same host
  operations in both programs and stay opaque here; the pieces below are the dense ones, each read at an index.
-/
import Idealize.ShloMosaic.PureOps.Ideal.Laws
import Idealize.ShloMosaic.Lib.ValueIdx

noncomputable section

open scoped BigOperators

namespace Cert.Spec
open Idealize.ShloMosaic Idealize.ShloMosaic.ValueIdx

/-- The product of an M×K matrix with a K×N matrix: entry (p, q) is the sum over κ of X (p, κ) · W (κ, q). -/
def matProd {M K N : Nat} (X : FVec Ideal ⟨2, ![M, K]⟩ .f32) (W : FVec Ideal ⟨2, ![K, N]⟩ .f32) :
    FVec Ideal ⟨2, ![M, N]⟩ .f32 :=
  fun i => ∑ κ : Fin K, X (ix2 (i 0) κ) * W (ix2 κ (i 1))

/-- Row e of H times the e-th entry of a column of weights. -/
def scaleByCol {E D : Nat} (H : FVec Ideal ⟨2, ![E, D]⟩ .f32) (w : FVec Ideal ⟨2, ![E, 1]⟩ .f32) :
    FVec Ideal ⟨2, ![E, D]⟩ .f32 :=
  fun i => H i * w (ix2 (i 0) 0)

/-- A one-row bias added to every row of A. -/
def addRow {N D : Nat} (A : FVec Ideal ⟨2, ![N, D]⟩ .f32) (b : FVec Ideal ⟨2, ![1, D]⟩ .f32) :
    FVec Ideal ⟨2, ![N, D]⟩ .f32 :=
  fun i => A i + b (ix2 0 (i 1))

/-- A one-row bias added to every row of A, then the maximum with zero. -/
def reluAddRow {N D : Nat} (A : FVec Ideal ⟨2, ![N, D]⟩ .f32) (b : FVec Ideal ⟨2, ![1, D]⟩ .f32) :
    FVec Ideal ⟨2, ![N, D]⟩ .f32 :=
  fun i => max (A i + b (ix2 0 (i 1))) (Ideal.ofBits .f32 0x00000000#32)

theorem matProd_apply {M K N : Nat} (X : FVec Ideal ⟨2, ![M, K]⟩ .f32) (W : FVec Ideal ⟨2, ![K, N]⟩ .f32)
    (p : Fin M) (q : Fin N) : matProd X W (ix2 p q) = ∑ κ : Fin K, X (ix2 p κ) * W (ix2 κ q) := rfl

theorem scaleByCol_apply {E D : Nat} (H : FVec Ideal ⟨2, ![E, D]⟩ .f32) (w : FVec Ideal ⟨2, ![E, 1]⟩ .f32)
    (e : Fin E) (d : Fin D) : scaleByCol H w (ix2 e d) = H (ix2 e d) * w (ix2 e 0) := rfl

theorem addRow_apply {N D : Nat} (A : FVec Ideal ⟨2, ![N, D]⟩ .f32) (b : FVec Ideal ⟨2, ![1, D]⟩ .f32)
    (p : Fin N) (d : Fin D) : addRow A b (ix2 p d) = A (ix2 p d) + b (ix2 0 d) := rfl

theorem reluAddRow_apply {N D : Nat} (A : FVec Ideal ⟨2, ![N, D]⟩ .f32) (b : FVec Ideal ⟨2, ![1, D]⟩ .f32)
    (p : Fin N) (d : Fin D) :
    reluAddRow A b (ix2 p d) = max (A (ix2 p d) + b (ix2 0 d)) (Ideal.ofBits .f32 0x00000000#32) := rfl

end Cert.Spec

end
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.Dense1.lean ====
/-
  The first dense call: the node features times the first weight matrix.

  The call walks the 50,000 nodes in 50 blocks of 1,000 rows; at block t it reads rows 1000·t … 1000·t + 999 of the
  features and the whole 256×128 weight matrix, and writes the same rows of the product.  Rounding the operands to a
  narrower format on the way into the multiplier changes nothing over the extended reals, and the product into a zero
  accumulator is the plain sum over the contracted coordinate.  So the result array is the matrix product.
-/
import proofs.«102383_j59828894433328_1_alg».proof.Proof.Gen.KernelIdeal.Frame
import proofs.«102383_j59828894433328_1_alg».proof.Proof.Spec
import Idealize.ShloMosaic.Lib.Pipeline.Value
import Idealize.ShloMosaic.Lib.ValueIdx
import Idealize.ShloMosaic.Lib.ValueLayout
import proofs.«102383_j59828894433328_1_alg».proof.Proof.LibPlainDot
set_option maxRecDepth 16384

noncomputable section

open scoped BigOperators

namespace Cert.KernelIdeal.Dense1
open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The call's dimension numbers are those of a plain matrix product. -/
theorem plain : PlainDot.IsPlain dot_S1000x256_S256x128_S1000x128_1_0_0_1_n_n := ⟨rfl, rfl, rfl, rfl, rfl, rfl⟩

/-- The body's product at row p, column q of a block: the sum over κ of the block's (p, κ) times the matrix's (κ, q). -/
theorem pay_apply (x0 : Vec Ideal S1000x256 .f32) (x1 : Vec Ideal S256x128 .f32) (p : Fin 1000) (q : Fin 128) :
    k0_pay1 x0 x1 (ix2 p q) = ∑ κ : Fin 256, x0 (ix2 p κ) * x1 (ix2 κ q) := by
  unfold k0_pay1
  exact PlainDot.matmul_zero_plain dot_S1000x256_S256x128_S1000x128_1_0_0_1_n_n plain none
    (truncf .bf16 x0 bitsLt_bf16_f32) (truncf .bf16 x1 bitsLt_bf16_f32) p q

/-- Block t of the features and of the result starts at row 1000·t, column 0; the weight matrix is one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node features and the weight matrix as the call finds them. -/
abbrev nodes (c : Dev nD) : FVec Ideal S50000x256 .f32 := V c main_arg0
abbrev weight (c : Dev nD) : FVec Ideal S256x128 .f32 := V c main_arg3

/-- What block t writes back is block t of the matrix product. -/
theorem flushed_eq (c : Dev nD) (t : Fin cfg0.N) :
    (dat0 V c).flushed 2 t = ((cfg0.win 2).blk t).view.read (Elt Ideal)
      (Spec.matProd (nodes V c) (weight V c)) := by
  show (cfg0.win 2).cut (grid0.coords t) ((dat0 V c).after 2 t) = _
  rw [after0_2]
  unfold out0_2
  rw [View.canon_unit_zero hz]
  simp only [View.ld_unit_zero (S := S1000x256) hz, View.ld_unit_zero (S := S256x128) hz]
  obtain ⟨e0, e1, e2, e3, e4, e5⟩ := idx_facts t
  funext j
  obtain ⟨p, q, rfl⟩ : ∃ (p : Fin 1000) (q : Fin 128), j = ix2 p q := ⟨j 0, j 1, eq_ix2 j⟩
  show k0_pay1 (iblk0 V c 0 t) (iblk0 V c 1 t) (ix2 p q)
    = Spec.matProd (nodes V c) (weight V c) (((cfg0.win 2).blk t).view.emb (ix2 p q))
  refine (pay_apply _ _ p q).trans ?_
  have ht : t.val < 50 := lt_of_lt_of_eq t.isLt N_0
  have h2 : ((cfg0.win 2).blk t).view.emb (ix2 p q)
      = (ix2 (⟨t.val * 1000 + p.val, by omega⟩ : Fin 50000) q : S50000x128.Idx) := by
    funext a; apply Fin.ext
    match a with
    | ⟨0, _⟩ => show win0_2.index t (0 : Fin 2) * 1000 + 1 * p.val = t.val * 1000 + p.val; omega
    | ⟨1, _⟩ => show win0_2.index t (1 : Fin 2) * 128 + 1 * q.val = q.val; omega
  have h0 : ∀ κ : Fin 256, ((cfg0.win 0).blk t).view.emb (ix2 p κ)
      = (ix2 (⟨t.val * 1000 + p.val, by omega⟩ : Fin 50000) κ : S50000x256.Idx) := by
    intro κ; funext a; apply Fin.ext
    match a with
    | ⟨0, _⟩ => show win0_0.index t (0 : Fin 2) * 1000 + 1 * p.val = t.val * 1000 + p.val; omega
    | ⟨1, _⟩ => show win0_0.index t (1 : Fin 2) * 256 + 1 * κ.val = κ.val; omega
  have h1 : ∀ κ : Fin 256, ((cfg0.win 1).blk t).view.emb (ix2 κ q) = (ix2 κ q : S256x128.Idx) := by
    intro κ; funext a; apply Fin.ext
    match a with
    | ⟨0, _⟩ => show win0_1.index t (0 : Fin 2) * 256 + 1 * κ.val = κ.val; omega
    | ⟨1, _⟩ => show win0_1.index t (1 : Fin 2) * 128 + 1 * q.val = q.val; omega
  rw [h2, Spec.matProd_apply]
  refine Finset.sum_congr rfl fun κ _ => ?_
  show nodes V c (((cfg0.win 0).blk t).view.emb (ix2 p κ)) * weight V c (((cfg0.win 1).blk t).view.emb (ix2 κ q)) = _
  rw [h0 κ, h1 κ]

/-- An index lies in block t iff its row is among rows 1000·t … 1000·t + 999 (and its column among the 128). -/
theorem mem_blk (t : Fin cfg0.N) (i : S50000x128.Idx) :
    i ∈ ((cfg0.win 2).blk t).view.set ↔ ∀ a : Fin 2, win0_2.index t a * S1000x128.size a ≤ (i a).val
      ∧ (i a).val < win0_2.index t a * S1000x128.size a + S1000x128.size a := by
  show i ∈ ((View.whole main_v5).slice (win0_2.rect t)).set ↔ _
  rw [View.set_slice_whole, Rect.mem_set_unit]
  exact Iff.rfl

/-- Every row belongs to a block: row r to block r / 1000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 1000 < cfg0.N := by show _ < grid0.N; rw [N_0]; omega
  obtain ⟨e0, e1, e2, e3, e4, e5⟩ := idx_facts ⟨(i 0).val / 1000, hN⟩
  refine ⟨⟨(i 0).val / 1000, hN⟩, flush0_2 _, ?_⟩
  rw [mem_blk]
  intro a
  match a with
  | ⟨0, _⟩ =>
    show win0_2.index ⟨(i 0).val / 1000, hN⟩ (0 : Fin 2) * 1000 ≤ (i 0).val
      ∧ (i 0).val < win0_2.index ⟨(i 0).val / 1000, hN⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, hN⟩ (1 : Fin 2) * 128 ≤ (i 1).val
      ∧ (i 1).val < win0_2.index ⟨(i 0).val / 1000, hN⟩ (1 : Fin 2) * 128 + 128
    rw [e5]; omega

/-- After the call the result array is the product of the features with the weight matrix. -/
theorem result (c : Dev nD) : (dat0 V c).arrAt 2 cfg0.N = Spec.matProd (nodes V c) (weight V c) :=
  (dat0 V c).arrAt_eq_of_cover 2 _ (fun t _ => flushed_eq V c t) cover

end Cert.KernelIdeal.Dense1

end
-- ==== Proof.EdgeScale1.lean ====
/-
  The first edge-scaling call: every gathered row times its edge's weight.

  The call walks the 1,600,000 edges in 200 blocks of 8,000 rows; at block t it reads rows 8000·t … 8000·t + 7999 of
  the gathered features and of the weight column, multiplies each row by its weight, and writes the same rows of the
  result.  So the result array is the gathered array scaled row by row by the weight column.
-/
import proofs.«102383_j59828894433328_1_alg».proof.Proof.Gen.KernelIdeal.Frame
import proofs.«102383_j59828894433328_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.EdgeScale1
open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's product at row p, column q of a block: the block's entry times the weight of row p. -/
theorem pay_apply (x0 : Vec Ideal S8000x128 .f32) (x1 : Vec Ideal S8000x1 .f32) (p : Fin 8000) (q : Fin 128) :
    k1_pay1 x0 x1 (ix2 p q) = x0 (ix2 p q) * x1 (ix2 p 0) := by
  unfold k1_pay1
  simp only [shapeCast_self]
  rw [mulf_apply]
  congr 1
  exact broadcastTo_apply _ _ _ _ (fun a => by match a with | ⟨0, _⟩ => rfl | ⟨1, _⟩ => rfl)

/-- Block t of every window starts at row 8000·t, column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The gathered features and the weight column as the call finds them. -/
abbrev feat (c : Dev nD) : FVec Ideal S1600000x128 .f32 := V c main_v12
abbrev wcol (c : Dev nD) : FVec Ideal S1600000x1 .f32 := V c main_v4

/-- What block t writes back is block t of the row-scaled array. -/
theorem flushed_eq (c : Dev nD) (t : Fin cfg1.N) :
    (dat1 V c).flushed 2 t = ((cfg1.win 2).blk t).view.read (Elt Ideal)
      (Spec.scaleByCol (feat V c) (wcol V c)) := by
  show (cfg1.win 2).cut (grid1.coords t) ((dat1 V c).after 2 t) = _
  rw [after1_2]
  unfold out1_2
  rw [View.canon_unit_zero hz]
  simp only [View.ld_unit_zero (S := S8000x128) hz, View.ld_unit_zero (S := S8000x1) hz]
  obtain ⟨e0, e1, e2, e3, e4, e5⟩ := idx_facts t
  funext j
  obtain ⟨p, q, rfl⟩ : ∃ (p : Fin 8000) (q : Fin 128), j = ix2 p q := ⟨j 0, j 1, eq_ix2 j⟩
  show k1_pay1 (iblk1 V c 0 t) (iblk1 V c 1 t) (ix2 p q)
    = Spec.scaleByCol (feat V c) (wcol V c) (((cfg1.win 2).blk t).view.emb (ix2 p q))
  refine (pay_apply _ _ p q).trans ?_
  have ht : t.val < 200 := lt_of_lt_of_eq t.isLt N_1
  have h2 : ((cfg1.win 2).blk t).view.emb (ix2 p q)
      = (ix2 (⟨t.val * 8000 + p.val, by omega⟩ : Fin 1600000) q : S1600000x128.Idx) := by
    funext a; apply Fin.ext
    match a with
    | ⟨0, _⟩ => show win1_2.index t (0 : Fin 2) * 8000 + 1 * p.val = t.val * 8000 + p.val; omega
    | ⟨1, _⟩ => show win1_2.index t (1 : Fin 2) * 128 + 1 * q.val = q.val; omega
  have h0 : ((cfg1.win 0).blk t).view.emb (ix2 p q)
      = (ix2 (⟨t.val * 8000 + p.val, by omega⟩ : Fin 1600000) q : S1600000x128.Idx) := by
    funext a; apply Fin.ext
    match a with
    | ⟨0, _⟩ => show win1_0.index t (0 : Fin 2) * 8000 + 1 * p.val = t.val * 8000 + p.val; omega
    | ⟨1, _⟩ => show win1_0.index t (1 : Fin 2) * 128 + 1 * q.val = q.val; omega
  have h1 : ((cfg1.win 1).blk t).view.emb (ix2 p 0)
      = (ix2 (⟨t.val * 8000 + p.val, by omega⟩ : Fin 1600000) (0 : Fin 1) : S1600000x1.Idx) := by
    funext a; apply Fin.ext
    match a with
    | ⟨0, _⟩ => show win1_1.index t (0 : Fin 2) * 8000 + 1 * p.val = t.val * 8000 + p.val; omega
    | ⟨1, _⟩ => show win1_1.index t (1 : Fin 2) * 1 + 1 * 0 = 0; omega
  show feat V c (((cfg1.win 0).blk t).view.emb (ix2 p q)) * wcol V c (((cfg1.win 1).blk t).view.emb (ix2 p 0))
    = Spec.scaleByCol (feat V c) (wcol V c) (((cfg1.win 2).blk t).view.emb (ix2 p q))
  rw [h0, h1, h2]
  rfl

/-- An index lies in block t iff its row is among rows 8000·t … 8000·t + 7999 (and its column among the 128). -/
theorem mem_blk (t : Fin cfg1.N) (i : S1600000x128.Idx) :
    i ∈ ((cfg1.win 2).blk t).view.set ↔ ∀ a : Fin 2, win1_2.index t a * S8000x128.size a ≤ (i a).val
      ∧ (i a).val < win1_2.index t a * S8000x128.size a + S8000x128.size a := by
  show i ∈ ((View.whole main_v13).slice (win1_2.rect t)).set ↔ _
  rw [View.set_slice_whole, Rect.mem_set_unit]
  exact Iff.rfl

/-- Every row belongs to a block: row r to block r / 8000. -/
theorem cover (i : S1600000x128.Idx) :
    ∃ t : Fin cfg1.N, (cfg1.win 2).flush t = true ∧ i ∈ ((cfg1.win 2).blk t).view.set := by
  have hi0 : (i 0).val < 1600000 := (i 0).isLt
  have hi1 : (i 1).val < 128 := (i 1).isLt
  have hN : (i 0).val / 8000 < cfg1.N := by show _ < grid1.N; rw [N_1]; omega
  obtain ⟨e0, e1, e2, e3, e4, e5⟩ := idx_facts ⟨(i 0).val / 8000, hN⟩
  refine ⟨⟨(i 0).val / 8000, hN⟩, flush1_2 _, ?_⟩
  rw [mem_blk]
  intro a
  match a with
  | ⟨0, _⟩ =>
    show win1_2.index ⟨(i 0).val / 8000, hN⟩ (0 : Fin 2) * 8000 ≤ (i 0).val
      ∧ (i 0).val < win1_2.index ⟨(i 0).val / 8000, hN⟩ (0 : Fin 2) * 8000 + 8000
    rw [e4]; show (i 0).val / 8000 * 8000 ≤ (i 0).val ∧ (i 0).val < (i 0).val / 8000 * 8000 + 8000; omega
  | ⟨1, _⟩ =>
    show win1_2.index ⟨(i 0).val / 8000, hN⟩ (1 : Fin 2) * 128 ≤ (i 1).val
      ∧ (i 1).val < win1_2.index ⟨(i 0).val / 8000, hN⟩ (1 : Fin 2) * 128 + 128
    rw [e5]; omega

/-- After the call the result array is the gathered array scaled row by row by the weight column. -/
theorem result (c : Dev nD) : (dat1 V c).arrAt 2 cfg1.N = Spec.scaleByCol (feat V c) (wcol V c) :=
  (dat1 V c).arrAt_eq_of_cover 2 _ (fun t _ => flushed_eq V c t) cover

end Cert.KernelIdeal.EdgeScale1

end
-- ==== Proof.Dense2.lean ====
/-
  The middle call: the first layer's bias and max(·, 0), fused with the second dense product.

  The call walks the 50,000 nodes in 50 blocks of 1,000 rows; at block t it reads rows 1000·t … 1000·t + 999 of the
  first aggregate, the one-row bias and the whole 128×64 weight matrix; adds the bias to every row, takes the maximum
  with zero, and multiplies by the weight matrix.  Rounding on the way into the multiplier changes nothing over the
  extended reals.  So the result array is the product of (the aggregate plus the bias row, clipped below at zero) with
  the weight matrix.
-/
import proofs.«102383_j59828894433328_1_alg».proof.Proof.Gen.KernelIdeal.Frame
import proofs.«102383_j59828894433328_1_alg».proof.Proof.Spec
import Idealize.ShloMosaic.Lib.Pipeline.Value
import Idealize.ShloMosaic.Lib.ValueIdx
import Idealize.ShloMosaic.Lib.ValueLayout
import proofs.«102383_j59828894433328_1_alg».proof.Proof.LibPlainDot
set_option maxRecDepth 16384

noncomputable section

open scoped BigOperators

namespace Cert.KernelIdeal.Dense2
open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The call's dimension numbers are those of a plain matrix product. -/
theorem plain : PlainDot.IsPlain dot_S1000x128_S128x64_S1000x64_1_0_0_1_n_n := ⟨rfl, rfl, rfl, rfl, rfl, rfl⟩

/-- The clipped, biased block at row p, column κ. -/
theorem hidden_apply (x0 : Vec Ideal S1000x128 .f32) (x1 : Vec Ideal S1x128 .f32) (p : Fin 1000) (κ : Fin 128) :
    maximumf (addf (shapeCast S1000x128 x0 shapeCasts_S1000x128_S1000x128)
        (broadcastTo S1000x128 (shapeCast S1x128 x1 shapeCasts_S1x128_S1x128) broadcasts_S1x128_S1000x128))
      (broadcast S1000x128 (Scalar.ofBits (F := Ideal) .f32 0x00000000#32)) (ix2 p κ)
    = max (x0 (ix2 p κ) + x1 (ix2 0 κ)) (Ideal.ofBits .f32 0x00000000#32) := by
  simp only [shapeCast_self]
  have hb : broadcastTo S1000x128 x1 broadcasts_S1x128_S1000x128 (ix2 p κ) = x1 (ix2 0 κ) :=
    broadcastTo_apply _ _ _ _ (fun a => by match a with | ⟨0, _⟩ => rfl | ⟨1, _⟩ => rfl)
  rw [maximumf_apply, addf_apply, hb]
  rfl

/-- The body's product at row p, column q of a block: the sum over κ of the clipped, biased (p, κ) times the
    matrix's (κ, q). -/
theorem pay_apply (x0 : Vec Ideal S1000x128 .f32) (x1 : Vec Ideal S1x128 .f32) (x2 : Vec Ideal S128x64 .f32)
    (p : Fin 1000) (q : Fin 64) :
    k2_pay1 x0 x1 x2 (ix2 p q)
      = ∑ κ : Fin 128, max (x0 (ix2 p κ) + x1 (ix2 0 κ)) (Ideal.ofBits .f32 0x00000000#32) * x2 (ix2 κ q) := by
  unfold k2_pay1
  refine (PlainDot.matmul_zero_plain dot_S1000x128_S128x64_S1000x64_1_0_0_1_n_n plain none
    (truncf .bf16 _ bitsLt_bf16_f32) (truncf .bf16 x2 bitsLt_bf16_f32) p q).trans ?_
  refine Finset.sum_congr rfl fun κ _ => ?_
  rw [truncf_apply, truncf_apply, hidden_apply]

/-- Block t of the aggregate and of the result starts at row 1000·t, column 0; the bias row and the weight matrix are
    one block each. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first aggregate, the bias row and the weight matrix as the call finds them. -/
abbrev agg (c : Dev nD) : FVec Ideal S50000x128 .f32 := V c main_v16
abbrev bias (c : Dev nD) : FVec Ideal S1x128 .f32 := V c main_v17
abbrev weight (c : Dev nD) : FVec Ideal S128x64 .f32 := V c main_arg5

/-- What block t writes back is block t of the product. -/
theorem flushed_eq (c : Dev nD) (t : Fin cfg2.N) :
    (dat2 V c).flushed 3 t = ((cfg2.win 3).blk t).view.read (Elt Ideal)
      (Spec.matProd (Spec.reluAddRow (agg V c) (bias V c)) (weight V c)) := by
  show (cfg2.win 3).cut (grid2.coords t) ((dat2 V c).after 3 t) = _
  rw [after2_3]
  unfold out2_3
  rw [View.canon_unit_zero hz]
  simp only [View.ld_unit_zero (S := S1000x128) hz, View.ld_unit_zero (S := S1x128) hz, View.ld_unit_zero (S := S128x64) hz]
  obtain ⟨e0, e1, e2, e3, e4, e5, e6, e7⟩ := idx_facts t
  funext j
  obtain ⟨p, q, rfl⟩ : ∃ (p : Fin 1000) (q : Fin 64), j = ix2 p q := ⟨j 0, j 1, eq_ix2 j⟩
  show k2_pay1 (iblk2 V c 0 t) (iblk2 V c 1 t) (iblk2 V c 2 t) (ix2 p q)
    = Spec.matProd (Spec.reluAddRow (agg V c) (bias V c)) (weight V c) (((cfg2.win 3).blk t).view.emb (ix2 p q))
  refine (pay_apply _ _ _ p q).trans ?_
  have ht : t.val < 50 := lt_of_lt_of_eq t.isLt N_2
  have h3 : ((cfg2.win 3).blk t).view.emb (ix2 p q)
      = (ix2 (⟨t.val * 1000 + p.val, by omega⟩ : Fin 50000) q : S50000x64.Idx) := by
    funext a; apply Fin.ext
    match a with
    | ⟨0, _⟩ => show win2_3.index t (0 : Fin 2) * 1000 + 1 * p.val = t.val * 1000 + p.val; omega
    | ⟨1, _⟩ => show win2_3.index t (1 : Fin 2) * 64 + 1 * q.val = q.val; omega
  have h0 : ∀ κ : Fin 128, ((cfg2.win 0).blk t).view.emb (ix2 p κ)
      = (ix2 (⟨t.val * 1000 + p.val, by omega⟩ : Fin 50000) κ : S50000x128.Idx) := by
    intro κ; funext a; apply Fin.ext
    match a with
    | ⟨0, _⟩ => show win2_0.index t (0 : Fin 2) * 1000 + 1 * p.val = t.val * 1000 + p.val; omega
    | ⟨1, _⟩ => show win2_0.index t (1 : Fin 2) * 128 + 1 * κ.val = κ.val; omega
  have h1 : ∀ κ : Fin 128, ((cfg2.win 1).blk t).view.emb (ix2 0 κ) = (ix2 (0 : Fin 1) κ : S1x128.Idx) := by
    intro κ; funext a; apply Fin.ext
    match a with
    | ⟨0, _⟩ => show win2_1.index t (0 : Fin 2) * 1 + 1 * 0 = 0; omega
    | ⟨1, _⟩ => show win2_1.index t (1 : Fin 2) * 128 + 1 * κ.val = κ.val; omega
  have h2 : ∀ κ : Fin 128, ((cfg2.win 2).blk t).view.emb (ix2 κ q) = (ix2 κ q : S128x64.Idx) := by
    intro κ; funext a; apply Fin.ext
    match a with
    | ⟨0, _⟩ => show win2_2.index t (0 : Fin 2) * 128 + 1 * κ.val = κ.val; omega
    | ⟨1, _⟩ => show win2_2.index t (1 : Fin 2) * 64 + 1 * q.val = q.val; omega
  rw [h3, Spec.matProd_apply]
  refine Finset.sum_congr rfl fun κ _ => ?_
  show max (agg V c (((cfg2.win 0).blk t).view.emb (ix2 p κ)) + bias V c (((cfg2.win 1).blk t).view.emb (ix2 0 κ)))
      (Ideal.ofBits .f32 0x00000000#32) * weight V c (((cfg2.win 2).blk t).view.emb (ix2 κ q)) = _
  rw [h0 κ, h1 κ, h2 κ]
  rfl

/-- An index lies in block t iff its row is among rows 1000·t … 1000·t + 999 (and its column among the 64). -/
theorem mem_blk (t : Fin cfg2.N) (i : S50000x64.Idx) :
    i ∈ ((cfg2.win 3).blk t).view.set ↔ ∀ a : Fin 2, win2_3.index t a * S1000x64.size a ≤ (i a).val
      ∧ (i a).val < win2_3.index t a * S1000x64.size a + S1000x64.size a := by
  show i ∈ ((View.whole main_v18).slice (win2_3.rect t)).set ↔ _
  rw [View.set_slice_whole, Rect.mem_set_unit]
  exact Iff.rfl

/-- Every row belongs to a block: row r to block r / 1000. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : (i 0).val / 1000 < cfg2.N := by show _ < grid2.N; rw [N_2]; omega
  obtain ⟨e0, e1, e2, e3, e4, e5, e6, e7⟩ := idx_facts ⟨(i 0).val / 1000, hN⟩
  refine ⟨⟨(i 0).val / 1000, hN⟩, flush2_3 _, ?_⟩
  rw [mem_blk]
  intro a
  match a with
  | ⟨0, _⟩ =>
    show win2_3.index ⟨(i 0).val / 1000, hN⟩ (0 : Fin 2) * 1000 ≤ (i 0).val
      ∧ (i 0).val < win2_3.index ⟨(i 0).val / 1000, hN⟩ (0 : Fin 2) * 1000 + 1000
    rw [e6]; show (i 0).val / 1000 * 1000 ≤ (i 0).val ∧ (i 0).val < (i 0).val / 1000 * 1000 + 1000; omega
  | ⟨1, _⟩ =>
    show win2_3.index ⟨(i 0).val / 1000, hN⟩ (1 : Fin 2) * 64 ≤ (i 1).val
      ∧ (i 1).val < win2_3.index ⟨(i 0).val / 1000, hN⟩ (1 : Fin 2) * 64 + 64
    rw [e7]; omega

/-- After the call the result array is the product of the clipped, biased aggregate with the weight matrix. -/
theorem result (c : Dev nD) :
    (dat2 V c).arrAt 3 cfg2.N = Spec.matProd (Spec.reluAddRow (agg V c) (bias V c)) (weight V c) :=
  (dat2 V c).arrAt_eq_of_cover 3 _ (fun t _ => flushed_eq V c t) cover

end Cert.KernelIdeal.Dense2

end
-- ==== Proof.EdgeScale2.lean ====
/-
  The second edge-scaling call: every gathered row times its edge's weight.

  The call walks the 1,600,000 edges in 200 blocks of 8,000 rows; at block t it reads rows 8000·t … 8000·t + 7999 of
  the gathered features and of the weight column, multiplies each row by its weight, and writes the same rows of the
  result.  So the result array is the gathered array scaled row by row by the weight column.
-/
import proofs.«102383_j59828894433328_1_alg».proof.Proof.Gen.KernelIdeal.Frame
import proofs.«102383_j59828894433328_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.EdgeScale2
open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's product at row p, column q of a block: the block's entry times the weight of row p. -/
theorem pay_apply (x0 : Vec Ideal S8000x64 .f32) (x1 : Vec Ideal S8000x1 .f32) (p : Fin 8000) (q : Fin 64) :
    k3_pay1 x0 x1 (ix2 p q) = x0 (ix2 p q) * x1 (ix2 p 0) := by
  unfold k3_pay1
  simp only [shapeCast_self]
  rw [mulf_apply]
  congr 1
  exact broadcastTo_apply _ _ _ _ (fun a => by match a with | ⟨0, _⟩ => rfl | ⟨1, _⟩ => rfl)

/-- Block t of every window starts at row 8000·t, column 0. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The gathered features and the weight column as the call finds them. -/
abbrev feat (c : Dev nD) : FVec Ideal S1600000x64 .f32 := V c main_v25
abbrev wcol (c : Dev nD) : FVec Ideal S1600000x1 .f32 := V c main_v4

/-- What block t writes back is block t of the row-scaled array. -/
theorem flushed_eq (c : Dev nD) (t : Fin cfg3.N) :
    (dat3 V c).flushed 2 t = ((cfg3.win 2).blk t).view.read (Elt Ideal)
      (Spec.scaleByCol (feat V c) (wcol V c)) := by
  show (cfg3.win 2).cut (grid3.coords t) ((dat3 V c).after 2 t) = _
  rw [after3_2]
  unfold out3_2
  rw [View.canon_unit_zero hz]
  simp only [View.ld_unit_zero (S := S8000x64) hz, View.ld_unit_zero (S := S8000x1) hz]
  obtain ⟨e0, e1, e2, e3, e4, e5⟩ := idx_facts t
  funext j
  obtain ⟨p, q, rfl⟩ : ∃ (p : Fin 8000) (q : Fin 64), j = ix2 p q := ⟨j 0, j 1, eq_ix2 j⟩
  show k3_pay1 (iblk3 V c 0 t) (iblk3 V c 1 t) (ix2 p q)
    = Spec.scaleByCol (feat V c) (wcol V c) (((cfg3.win 2).blk t).view.emb (ix2 p q))
  refine (pay_apply _ _ p q).trans ?_
  have ht : t.val < 200 := lt_of_lt_of_eq t.isLt N_3
  have h2 : ((cfg3.win 2).blk t).view.emb (ix2 p q)
      = (ix2 (⟨t.val * 8000 + p.val, by omega⟩ : Fin 1600000) q : S1600000x64.Idx) := by
    funext a; apply Fin.ext
    match a with
    | ⟨0, _⟩ => show win3_2.index t (0 : Fin 2) * 8000 + 1 * p.val = t.val * 8000 + p.val; omega
    | ⟨1, _⟩ => show win3_2.index t (1 : Fin 2) * 64 + 1 * q.val = q.val; omega
  have h0 : ((cfg3.win 0).blk t).view.emb (ix2 p q)
      = (ix2 (⟨t.val * 8000 + p.val, by omega⟩ : Fin 1600000) q : S1600000x64.Idx) := by
    funext a; apply Fin.ext
    match a with
    | ⟨0, _⟩ => show win3_0.index t (0 : Fin 2) * 8000 + 1 * p.val = t.val * 8000 + p.val; omega
    | ⟨1, _⟩ => show win3_0.index t (1 : Fin 2) * 64 + 1 * q.val = q.val; omega
  have h1 : ((cfg3.win 1).blk t).view.emb (ix2 p 0)
      = (ix2 (⟨t.val * 8000 + p.val, by omega⟩ : Fin 1600000) (0 : Fin 1) : S1600000x1.Idx) := by
    funext a; apply Fin.ext
    match a with
    | ⟨0, _⟩ => show win3_1.index t (0 : Fin 2) * 8000 + 1 * p.val = t.val * 8000 + p.val; omega
    | ⟨1, _⟩ => show win3_1.index t (1 : Fin 2) * 1 + 1 * 0 = 0; omega
  show feat V c (((cfg3.win 0).blk t).view.emb (ix2 p q)) * wcol V c (((cfg3.win 1).blk t).view.emb (ix2 p 0))
    = Spec.scaleByCol (feat V c) (wcol V c) (((cfg3.win 2).blk t).view.emb (ix2 p q))
  rw [h0, h1, h2]
  rfl

/-- An index lies in block t iff its row is among rows 8000·t … 8000·t + 7999 (and its column among the 64). -/
theorem mem_blk (t : Fin cfg3.N) (i : S1600000x64.Idx) :
    i ∈ ((cfg3.win 2).blk t).view.set ↔ ∀ a : Fin 2, win3_2.index t a * S8000x64.size a ≤ (i a).val
      ∧ (i a).val < win3_2.index t a * S8000x64.size a + S8000x64.size a := by
  show i ∈ ((View.whole main_v26).slice (win3_2.rect t)).set ↔ _
  rw [View.set_slice_whole, Rect.mem_set_unit]
  exact Iff.rfl

/-- Every row belongs to a block: row r to block r / 8000. -/
theorem cover (i : S1600000x64.Idx) :
    ∃ t : Fin cfg3.N, (cfg3.win 2).flush t = true ∧ i ∈ ((cfg3.win 2).blk t).view.set := by
  have hi0 : (i 0).val < 1600000 := (i 0).isLt
  have hi1 : (i 1).val < 64 := (i 1).isLt
  have hN : (i 0).val / 8000 < cfg3.N := by show _ < grid3.N; rw [N_3]; omega
  obtain ⟨e0, e1, e2, e3, e4, e5⟩ := idx_facts ⟨(i 0).val / 8000, hN⟩
  refine ⟨⟨(i 0).val / 8000, hN⟩, flush3_2 _, ?_⟩
  rw [mem_blk]
  intro a
  match a with
  | ⟨0, _⟩ =>
    show win3_2.index ⟨(i 0).val / 8000, hN⟩ (0 : Fin 2) * 8000 ≤ (i 0).val
      ∧ (i 0).val < win3_2.index ⟨(i 0).val / 8000, hN⟩ (0 : Fin 2) * 8000 + 8000
    rw [e4]; show (i 0).val / 8000 * 8000 ≤ (i 0).val ∧ (i 0).val < (i 0).val / 8000 * 8000 + 8000; omega
  | ⟨1, _⟩ =>
    show win3_2.index ⟨(i 0).val / 8000, hN⟩ (1 : Fin 2) * 64 ≤ (i 1).val
      ∧ (i 1).val < win3_2.index ⟨(i 0).val / 8000, hN⟩ (1 : Fin 2) * 64 + 64
    rw [e5]; omega

/-- After the call the result array is the gathered array scaled row by row by the weight column. -/
theorem result (c : Dev nD) : (dat3 V c).arrAt 2 cfg3.N = Spec.scaleByCol (feat V c) (wcol V c) :=
  (dat3 V c).arrAt_eq_of_cover 2 _ (fun t _ => flushed_eq V c t) cover

end Cert.KernelIdeal.EdgeScale2

end
-- ==== Proof.BiasOut.lean ====
/-
  The last call: the second bias added to every row of the second aggregate.

  The call walks the 50,000 nodes in 50 blocks of 1,000 rows; at block t it reads rows 1000·t … 1000·t + 999 of the
  aggregate and the one-row bias, and writes the same rows of the sum.  So the result array is the aggregate with the
  bias row added to every row.
-/
import proofs.«102383_j59828894433328_1_alg».proof.Proof.Gen.KernelIdeal.Frame
import proofs.«102383_j59828894433328_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.BiasOut
open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's sum at row p, column q of a block: the block's entry plus the bias of column q. -/
theorem pay_apply (x0 : Vec Ideal S1000x64 .f32) (x1 : Vec Ideal S1x64 .f32) (p : Fin 1000) (q : Fin 64) :
    k4_pay1 x0 x1 (ix2 p q) = x0 (ix2 p q) + x1 (ix2 0 q) := by
  unfold k4_pay1
  simp only [shapeCast_self]
  rw [addf_apply]
  congr 1
  exact broadcastTo_apply _ _ _ _ (fun a => by match a with | ⟨0, _⟩ => rfl | ⟨1, _⟩ => rfl)

/-- Block t of the aggregate and of the result starts at row 1000·t, column 0; the bias row is one block. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The aggregate and the bias row as the call finds them. -/
abbrev agg (c : Dev nD) : FVec Ideal S50000x64 .f32 := V c main_v29
abbrev bias (c : Dev nD) : FVec Ideal S1x64 .f32 := V c main_v30

/-- What block t writes back is block t of the aggregate plus the bias row. -/
theorem flushed_eq (c : Dev nD) (t : Fin cfg4.N) :
    (dat4 V c).flushed 2 t = ((cfg4.win 2).blk t).view.read (Elt Ideal)
      (Spec.addRow (agg V c) (bias V c)) := by
  show (cfg4.win 2).cut (grid4.coords t) ((dat4 V c).after 2 t) = _
  rw [after4_2]
  unfold out4_2
  rw [View.canon_unit_zero hz]
  simp only [View.ld_unit_zero (S := S1000x64) hz, View.ld_unit_zero (S := S1x64) hz]
  obtain ⟨e0, e1, e2, e3, e4, e5⟩ := idx_facts t
  funext j
  obtain ⟨p, q, rfl⟩ : ∃ (p : Fin 1000) (q : Fin 64), j = ix2 p q := ⟨j 0, j 1, eq_ix2 j⟩
  show k4_pay1 (iblk4 V c 0 t) (iblk4 V c 1 t) (ix2 p q)
    = Spec.addRow (agg V c) (bias V c) (((cfg4.win 2).blk t).view.emb (ix2 p q))
  refine (pay_apply _ _ p q).trans ?_
  have ht : t.val < 50 := lt_of_lt_of_eq t.isLt N_4
  have h2 : ((cfg4.win 2).blk t).view.emb (ix2 p q)
      = (ix2 (⟨t.val * 1000 + p.val, by omega⟩ : Fin 50000) q : S50000x64.Idx) := by
    funext a; apply Fin.ext
    match a with
    | ⟨0, _⟩ => show win4_2.index t (0 : Fin 2) * 1000 + 1 * p.val = t.val * 1000 + p.val; omega
    | ⟨1, _⟩ => show win4_2.index t (1 : Fin 2) * 64 + 1 * q.val = q.val; omega
  have h0 : ((cfg4.win 0).blk t).view.emb (ix2 p q)
      = (ix2 (⟨t.val * 1000 + p.val, by omega⟩ : Fin 50000) q : S50000x64.Idx) := by
    funext a; apply Fin.ext
    match a with
    | ⟨0, _⟩ => show win4_0.index t (0 : Fin 2) * 1000 + 1 * p.val = t.val * 1000 + p.val; omega
    | ⟨1, _⟩ => show win4_0.index t (1 : Fin 2) * 64 + 1 * q.val = q.val; omega
  have h1 : ((cfg4.win 1).blk t).view.emb (ix2 0 q) = (ix2 (0 : Fin 1) q : S1x64.Idx) := by
    funext a; apply Fin.ext
    match a with
    | ⟨0, _⟩ => show win4_1.index t (0 : Fin 2) * 1 + 1 * 0 = 0; omega
    | ⟨1, _⟩ => show win4_1.index t (1 : Fin 2) * 64 + 1 * q.val = q.val; omega
  show agg V c (((cfg4.win 0).blk t).view.emb (ix2 p q)) + bias V c (((cfg4.win 1).blk t).view.emb (ix2 0 q))
    = Spec.addRow (agg V c) (bias V c) (((cfg4.win 2).blk t).view.emb (ix2 p q))
  rw [h0, h1, h2]
  rfl

/-- An index lies in block t iff its row is among rows 1000·t … 1000·t + 999 (and its column among the 64). -/
theorem mem_blk (t : Fin cfg4.N) (i : S50000x64.Idx) :
    i ∈ ((cfg4.win 2).blk t).view.set ↔ ∀ a : Fin 2, win4_2.index t a * S1000x64.size a ≤ (i a).val
      ∧ (i a).val < win4_2.index t a * S1000x64.size a + S1000x64.size a := by
  show i ∈ ((View.whole main_v31).slice (win4_2.rect t)).set ↔ _
  rw [View.set_slice_whole, Rect.mem_set_unit]
  exact Iff.rfl

/-- Every row belongs to a block: row r to block r / 1000. -/
theorem cover (i : S50000x64.Idx) :
    ∃ t : Fin cfg4.N, (cfg4.win 2).flush t = true ∧ i ∈ ((cfg4.win 2).blk t).view.set := by
  have hi0 : (i 0).val < 50000 := (i 0).isLt
  have hi1 : (i 1).val < 64 := (i 1).isLt
  have hN : (i 0).val / 1000 < cfg4.N := by show _ < grid4.N; rw [N_4]; omega
  obtain ⟨e0, e1, e2, e3, e4, e5⟩ := idx_facts ⟨(i 0).val / 1000, hN⟩
  refine ⟨⟨(i 0).val / 1000, hN⟩, flush4_2 _, ?_⟩
  rw [mem_blk]
  intro a
  match a with
  | ⟨0, _⟩ =>
    show win4_2.index ⟨(i 0).val / 1000, hN⟩ (0 : Fin 2) * 1000 ≤ (i 0).val
      ∧ (i 0).val < win4_2.index ⟨(i 0).val / 1000, hN⟩ (0 : Fin 2) * 1000 + 1000
    rw [e4]; show (i 0).val / 1000 * 1000 ≤ (i 0).val ∧ (i 0).val < (i 0).val / 1000 * 1000 + 1000; omega
  | ⟨1, _⟩ =>
    show win4_2.index ⟨(i 0).val / 1000, hN⟩ (1 : Fin 2) * 64 ≤ (i 1).val
      ∧ (i 1).val < win4_2.index ⟨(i 0).val / 1000, hN⟩ (1 : Fin 2) * 64 + 64
    rw [e5]; omega

/-- After the call the result array is the second aggregate with the bias row added to every row. -/
theorem result (c : Dev nD) : (dat4 V c).arrAt 2 cfg4.N = Spec.addRow (agg V c) (bias V c) :=
  (dat4 V c).arrAt_eq_of_cover 2 _ (fun t _ => flushed_eq V c t) cover

end Cert.KernelIdeal.BiasOut

end
-- ==== Proof.KernelValue.lean ====
/-
  What the kernel program's buffers hold at each boundary between its host stretches and its five calls, as pure
  functions of the seven argument arrays.

  The program is a chain: slice the edge list into source and destination rows and reshape the weights to a column;
  dense product; gather by source; scale by weight; scatter-add by destination; bias, clip and second dense product;
  gather; scale; scatter-add; bias.  Each host stretch is read back operation by operation; each call's result array
  is the whole-array function proved for it; a buffer that a later stretch or call reads (the source and destination
  rows, the weight column, the biases and weights) is followed unchanged across everything in between, which neither
  writes it nor, where a call stages it as an input, changes it.
-/
import proofs.«102383_j59828894433328_1_alg».proof.Proof.Gen.KernelIdeal.Frame
import proofs.«102383_j59828894433328_1_alg».proof.Proof.Spec
import proofs.«102383_j59828894433328_1_alg».proof.Proof.Dense1
import proofs.«102383_j59828894433328_1_alg».proof.Proof.EdgeScale1
import proofs.«102383_j59828894433328_1_alg».proof.Proof.Dense2
import proofs.«102383_j59828894433328_1_alg».proof.Proof.EdgeScale2
import proofs.«102383_j59828894433328_1_alg».proof.Proof.BiasOut
import Idealize.ShloMosaic.Lib.StableHlo.Run
import Idealize.ShloMosaic.Lib.Pipeline.Value

set_option maxRecDepth 16384

noncomputable section

namespace Cert.KernelIdeal.Stages
open Idealize.ShloMosaic Idealize.ShloMosaic.TcCoe Idealize.SL.Sem Idealize.ShloMosaic.StableHlo
open Cert.KernelIdeal Cert.KernelIdeal.Gen
open Idealize.ShloMosaic.Pipeline (Dat Cfg Window)

abbrev I32 (S : Shape) := (⟨S, .i32⟩ : BufTy).Contents (Elt Ideal)
abbrev F32 (S : Shape) := (⟨S, .f32⟩ : BufTy).Contents (Elt Ideal)

/-! ## The stages as functions of the arguments -/

section Pure
variable (a0 : F32 S50000x256) (a1 : I32 S2x1600000) (a2 : F32 S1600000) (a3 : F32 S256x128) (a4 : F32 S128)
  (a5 : F32 S128x64) (a6 : F32 S64)

/-- Row 0 of the edge list: each edge's source node. -/
def row0 : I32 S1600000 :=
  shapeCast S1600000 (extractStridedSlice S1x1600000 ![0, 0] a1 slices_S2x1600000_S1x1600000_0_0) shapeCasts_S1x1600000_S1600000
/-- Row 1 of the edge list: each edge's destination node. -/
def row1 : I32 S1600000 :=
  shapeCast S1600000 (extractStridedSlice S1x1600000 ![1, 0] a1 slices_S2x1600000_S1x1600000_1_0) shapeCasts_S1x1600000_S1600000
/-- The gather's index column: a negative source index counted from the end, as a column. -/
def srcCol : I32 S1600000x1 :=
  broadcastInDim S1600000x1 ![0] bcast_S1600000_S1600000x1_0
    (select (cmpi .slt (row0 a1) (broadcastInDim S1600000 ![] bcast_S_S1600000 (constantI S_ 32 0#32)))
      (addi (row0 a1) (broadcastInDim S1600000 ![] bcast_S_S1600000 (constantI S_ 32 50000#32))) (row0 a1))
/-- The scatter's index column. -/
def dstCol : I32 S1600000x1 := broadcastInDim S1600000x1 ![0] bcast_S1600000_S1600000x1_0 (row1 a1)
/-- The edge weights as a column. -/
def ewCol : F32 S1600000x1 := shapeCast S1600000x1 a2 shapeCasts_S1600000_S1600000x1
/-- The biases as one-row matrices. -/
def b1Row : F32 S1x128 := shapeCast S1x128 a4 shapeCasts_S128_S1x128
def b2Row : F32 S1x64 := shapeCast S1x64 a6 shapeCasts_S64_S1x64
/-- The scatter-adds start from zero. -/
def zeros128 : F32 S50000x128 := broadcastInDim S50000x128 ![] bcast_S_S50000x128 (constant (F := Ideal) S_ .f32 0x00000000#32)
def zeros64 : F32 S50000x64 := broadcastInDim S50000x64 ![] bcast_S_S50000x64 (constant (F := Ideal) S_ .f32 0x00000000#32)

/-- Layer 1: the dense product. -/
def hid1 : F32 S50000x128 := Spec.matProd a0 a3
/-- Layer 1: the gathered rows, scaled. -/
def msg1 : F32 S1600000x128 :=
  Spec.scaleByCol (Host.gather gather_S50000x128_S1600000x1_S1600000x128_1_0_n_n_0_1_1128 (hid1 a0 a3) (srcCol a1)) (ewCol a2)
/-- Layer 1: the scaled rows summed by destination. -/
def agg1 : F32 S50000x128 :=
  Host.scatterAdd (F := Ideal) (φ := .f32) scatter_S50000x128_S1600000x1_S1600000x128_1_0_0_1 zeros128 (dstCol a1) (msg1 a0 a1 a2 a3)
/-- Layer 2: bias, clip, dense product. -/
def hid2 : F32 S50000x64 := Spec.matProd (Spec.reluAddRow (agg1 a0 a1 a2 a3) (b1Row a4)) a5
/-- Layer 2: the gathered rows, scaled. -/
def msg2 : F32 S1600000x64 :=
  Spec.scaleByCol (Host.gather gather_S50000x64_S1600000x1_S1600000x64_1_0_n_n_0_1_164 (hid2 a0 a1 a2 a3 a4 a5) (srcCol a1)) (ewCol a2)
/-- Layer 2: the scaled rows summed by destination. -/
def agg2 : F32 S50000x64 :=
  Host.scatterAdd (F := Ideal) (φ := .f32) scatter_S50000x64_S1600000x1_S1600000x64_1_0_0_1 zeros64 (dstCol a1) (msg2 a0 a1 a2 a3 a4 a5)
/-- The result: the second aggregate plus the second bias. -/
def out : F32 S50000x64 := Spec.addRow (agg2 a0 a1 a2 a3 a4 a5) (b2Row a6)

end Pure

/-! ## The boundaries -/

variable (m : (ℓ : Loc nD τ sig) → Buf (Elt Ideal) ℓ) (ρ : Dev nD → PrngReg) (c : Dev nD)

/-! ### Entering the first call -/

theorem arg0_at1 : W1 m ρ c (Proc.devRef .tc main_arg0) = (m ((c : Thread nD τ).loc main_arg0)) := by
  show StableHlo.after hostOps0 (W0 m ρ c) _ = _; after_results
theorem arg3_at1 : W1 m ρ c (Proc.devRef .tc main_arg3) = (m ((c : Thread nD τ).loc main_arg3)) := by
  show StableHlo.after hostOps0 (W0 m ρ c) _ = _; after_results

/-! ### After the first call -/

theorem hid1_at2 : W2 m ρ c (Proc.devRef .tc main_v5) = hid1 (m ((c : Thread nD τ).loc main_arg0)) (m ((c : Thread nD τ).loc main_arg3)) :=
  (W2_arr m ρ c 2).trans ((Dense1.result (V1 m ρ) c).trans (by
    show Spec.matProd (W1 m ρ c (Proc.devRef .tc main_arg0)) (W1 m ρ c (Proc.devRef .tc main_arg3)) = _
    rw [arg0_at1, arg3_at1]; rfl))
theorem v1_at2 : W2 m ρ c (Proc.devRef .tc main_v1) = row0 (m ((c : Thread nD τ).loc main_arg1)) := by
  rw [W2_of_ne m ρ c main_v1 (by decide)]
  show StableHlo.after hostOps0 (W0 m ρ c) _ = _; after_results; rfl
theorem v3_at2 : W2 m ρ c (Proc.devRef .tc main_v3) = row1 (m ((c : Thread nD τ).loc main_arg1)) := by
  rw [W2_of_ne m ρ c main_v3 (by decide)]
  show StableHlo.after hostOps0 (W0 m ρ c) _ = _; after_results; rfl
theorem v4_at2 : W2 m ρ c (Proc.devRef .tc main_v4) = ewCol (m ((c : Thread nD τ).loc main_arg2)) := by
  rw [W2_of_ne m ρ c main_v4 (by decide)]
  show StableHlo.after hostOps0 (W0 m ρ c) _ = _; after_results; rfl
theorem arg4_at2 : W2 m ρ c (Proc.devRef .tc main_arg4) = (m ((c : Thread nD τ).loc main_arg4)) := by
  rw [W2_of_ne m ρ c main_arg4 (by decide)]
  show StableHlo.after hostOps0 (W0 m ρ c) _ = _; after_results
theorem arg5_at2 : W2 m ρ c (Proc.devRef .tc main_arg5) = (m ((c : Thread nD τ).loc main_arg5)) := by
  rw [W2_of_ne m ρ c main_arg5 (by decide)]
  show StableHlo.after hostOps0 (W0 m ρ c) _ = _; after_results
theorem arg6_at2 : W2 m ρ c (Proc.devRef .tc main_arg6) = (m ((c : Thread nD τ).loc main_arg6)) := by
  rw [W2_of_ne m ρ c main_arg6 (by decide)]
  show StableHlo.after hostOps0 (W0 m ρ c) _ = _; after_results

/-! ### Entering the second call -/

theorem v12_at3 : W3 m ρ c (Proc.devRef .tc main_v12)
    = Host.gather gather_S50000x128_S1600000x1_S1600000x128_1_0_n_n_0_1_1128 (hid1 (m ((c : Thread nD τ).loc main_arg0)) (m ((c : Thread nD τ).loc main_arg3))) (srcCol (m ((c : Thread nD τ).loc main_arg1))) := by
  show StableHlo.after hostOps1 (W2 m ρ c) _ = _; after_results
  rw [v1_at2, hid1_at2]; rfl
theorem v4_at3 : W3 m ρ c (Proc.devRef .tc main_v4) = ewCol (m ((c : Thread nD τ).loc main_arg2)) := by
  show StableHlo.after hostOps1 (W2 m ρ c) _ = _; after_results
  exact v4_at2 m ρ c

/-! ### After the second call -/

theorem msg1_at4 : W4 m ρ c (Proc.devRef .tc main_v13) = msg1 (m ((c : Thread nD τ).loc main_arg0)) (m ((c : Thread nD τ).loc main_arg1)) (m ((c : Thread nD τ).loc main_arg2)) (m ((c : Thread nD τ).loc main_arg3)) :=
  (W4_arr m ρ c 2).trans ((EdgeScale1.result (V3 m ρ) c).trans (by
    show Spec.scaleByCol (W3 m ρ c (Proc.devRef .tc main_v12)) (W3 m ρ c (Proc.devRef .tc main_v4)) = _
    rw [v12_at3, v4_at3]; rfl))
theorem v1_at4 : W4 m ρ c (Proc.devRef .tc main_v1) = row0 (m ((c : Thread nD τ).loc main_arg1)) := by
  rw [W4_of_ne m ρ c main_v1 (by decide)]
  show StableHlo.after hostOps1 (W2 m ρ c) _ = _; after_results
  exact v1_at2 m ρ c
theorem v3_at4 : W4 m ρ c (Proc.devRef .tc main_v3) = row1 (m ((c : Thread nD τ).loc main_arg1)) := by
  rw [W4_of_ne m ρ c main_v3 (by decide)]
  show StableHlo.after hostOps1 (W2 m ρ c) _ = _; after_results
  exact v3_at2 m ρ c
theorem v4_at4 : W4 m ρ c (Proc.devRef .tc main_v4) = ewCol (m ((c : Thread nD τ).loc main_arg2)) :=
  ((W4_arr m ρ c 1).trans (((dat1 (V3 m ρ) c).arrAt_in 1 rfl _).trans (A_eq1 (V3 m ρ) c 1))).trans (v4_at3 m ρ c)
theorem arg4_at4 : W4 m ρ c (Proc.devRef .tc main_arg4) = (m ((c : Thread nD τ).loc main_arg4)) := by
  rw [W4_of_ne m ρ c main_arg4 (by decide)]
  show StableHlo.after hostOps1 (W2 m ρ c) _ = _; after_results
  exact arg4_at2 m ρ c
theorem arg5_at4 : W4 m ρ c (Proc.devRef .tc main_arg5) = (m ((c : Thread nD τ).loc main_arg5)) := by
  rw [W4_of_ne m ρ c main_arg5 (by decide)]
  show StableHlo.after hostOps1 (W2 m ρ c) _ = _; after_results
  exact arg5_at2 m ρ c
theorem arg6_at4 : W4 m ρ c (Proc.devRef .tc main_arg6) = (m ((c : Thread nD τ).loc main_arg6)) := by
  rw [W4_of_ne m ρ c main_arg6 (by decide)]
  show StableHlo.after hostOps1 (W2 m ρ c) _ = _; after_results
  exact arg6_at2 m ρ c

/-! ### Entering the third call -/

theorem v16_at5 : W5 m ρ c (Proc.devRef .tc main_v16) = agg1 (m ((c : Thread nD τ).loc main_arg0)) (m ((c : Thread nD τ).loc main_arg1)) (m ((c : Thread nD τ).loc main_arg2)) (m ((c : Thread nD τ).loc main_arg3)) := by
  show StableHlo.after hostOps2 (W4 m ρ c) _ = _; after_results
  rw [v3_at4, msg1_at4]; rfl
theorem v17_at5 : W5 m ρ c (Proc.devRef .tc main_v17) = b1Row (m ((c : Thread nD τ).loc main_arg4)) := by
  show StableHlo.after hostOps2 (W4 m ρ c) _ = _; after_results
  rw [arg4_at4]; rfl
theorem arg5_at5 : W5 m ρ c (Proc.devRef .tc main_arg5) = (m ((c : Thread nD τ).loc main_arg5)) := by
  show StableHlo.after hostOps2 (W4 m ρ c) _ = _; after_results
  exact arg5_at4 m ρ c

/-! ### After the third call -/

theorem hid2_at6 : W6 m ρ c (Proc.devRef .tc main_v18) = hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W6_arr m ρ c 3).trans ((Dense2.result (V5 m ρ) c).trans (by
    show Spec.matProd (Spec.reluAddRow (W5 m ρ c (Proc.devRef .tc main_v16)) (W5 m ρ c (Proc.devRef .tc main_v17))) (W5 m ρ c (Proc.devRef .tc main_arg5)) = _
    rw [v16_at5, v17_at5, arg5_at5]; rfl))
theorem v1_at6 : W6 m ρ c (Proc.devRef .tc main_v1) = row0 (m ((c : Thread nD τ).loc main_arg1)) := by
  rw [W6_of_ne m ρ c main_v1 (by decide)]
  show StableHlo.after hostOps2 (W4 m ρ c) _ = _; after_results
  exact v1_at4 m ρ c
theorem v3_at6 : W6 m ρ c (Proc.devRef .tc main_v3) = row1 (m ((c : Thread nD τ).loc main_arg1)) := by
  rw [W6_of_ne m ρ c main_v3 (by decide)]
  show StableHlo.after hostOps2 (W4 m ρ c) _ = _; after_results
  exact v3_at4 m ρ c
theorem v4_at6 : W6 m ρ c (Proc.devRef .tc main_v4) = ewCol (m ((c : Thread nD τ).loc main_arg2)) := by
  rw [W6_of_ne m ρ c main_v4 (by decide)]
  show StableHlo.after hostOps2 (W4 m ρ c) _ = _; after_results
  exact v4_at4 m ρ c
theorem arg6_at6 : W6 m ρ c (Proc.devRef .tc main_arg6) = (m ((c : Thread nD τ).loc main_arg6)) := by
  rw [W6_of_ne m ρ c main_arg6 (by decide)]
  show StableHlo.after hostOps2 (W4 m ρ c) _ = _; after_results
  exact arg6_at4 m ρ c

/-! ### Entering the fourth call -/

theorem v25_at7 : W7 m ρ c (Proc.devRef .tc main_v25)
    = Host.gather gather_S50000x64_S1600000x1_S1600000x64_1_0_n_n_0_1_164
        (hid2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (srcCol (m ((c : Thread nD τ).loc main_arg1))) := by
  show StableHlo.after hostOps3 (W6 m ρ c) _ = _; after_results
  rw [v1_at6, hid2_at6]; rfl
theorem v4_at7 : W7 m ρ c (Proc.devRef .tc main_v4) = ewCol (m ((c : Thread nD τ).loc main_arg2)) := by
  show StableHlo.after hostOps3 (W6 m ρ c) _ = _; after_results
  exact v4_at6 m ρ c

/-! ### After the fourth call -/

theorem msg2_at8 : W8 m ρ c (Proc.devRef .tc main_v26) = msg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m ρ c 2).trans ((EdgeScale2.result (V7 m ρ) c).trans (by
    show Spec.scaleByCol (W7 m ρ c (Proc.devRef .tc main_v25)) (W7 m ρ c (Proc.devRef .tc main_v4)) = _
    rw [v25_at7, v4_at7]; rfl))
theorem v3_at8 : W8 m ρ c (Proc.devRef .tc main_v3) = row1 (m ((c : Thread nD τ).loc main_arg1)) := by
  rw [W8_of_ne m ρ c main_v3 (by decide)]
  show StableHlo.after hostOps3 (W6 m ρ c) _ = _; after_results
  exact v3_at6 m ρ c
theorem arg6_at8 : W8 m ρ c (Proc.devRef .tc main_arg6) = (m ((c : Thread nD τ).loc main_arg6)) := by
  rw [W8_of_ne m ρ c main_arg6 (by decide)]
  show StableHlo.after hostOps3 (W6 m ρ c) _ = _; after_results
  exact arg6_at6 m ρ c

/-! ### Entering the last call -/

theorem v29_at9 : W9 m ρ c (Proc.devRef .tc main_v29) = agg2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps4 (W8 m ρ c) _ = _; after_results
  rw [v3_at8, msg2_at8]; rfl
theorem v30_at9 : W9 m ρ c (Proc.devRef .tc main_v30) = b2Row (m ((c : Thread nD τ).loc main_arg6)) := by
  show StableHlo.after hostOps4 (W8 m ρ c) _ = _; after_results
  rw [arg6_at8]; rfl

/-! ### The result -/

/-- After the last call the result buffer holds the chain's value at the launch's argument arrays. -/
theorem out_at10 : W10 m ρ c (Proc.devRef .tc main_v31)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W10_arr m ρ c 2).trans ((BiasOut.result (V9 m ρ) c).trans (by
    show Spec.addRow (W9 m ρ c (Proc.devRef .tc main_v29)) (W9 m ρ c (Proc.devRef .tc main_v30)) = _
    rw [v29_at9, v30_at9]; rfl))

end Cert.KernelIdeal.Stages

end
-- ==== Proof.Bridge.lean ====
/-
  The dense pieces of the graph convolution, each written three ways that agree over the extended reals.

  The per-edge weights, and each bias, enter the two programs in different layouts.  One program reshapes the
  weights to a column and a bias to a one-row matrix and lets a later step spread them; the other broadcasts them to
  the full shape first.  Read at an index (e, d) both give "row e scaled by weight e" and "bias d added to column d".
  Likewise the host's dot_general of plain dimension numbers is the matrix product.  No law of arithmetic is used
  beyond reading both sides at an index.
-/
import proofs.«102383_j59828894433328_1_alg».proof.Proof.Spec
import proofs.«102383_j59828894433328_1_alg».proof.Proof.LibPlainDot
import Idealize.ShloMosaic.Lib.Pipeline.Value
import Idealize.ShloMosaic.Lib.ValueLayout

noncomputable section

open scoped BigOperators

namespace Cert.Spec
open Idealize.ShloMosaic Idealize.ShloMosaic.ValueIdx

/-! ## The one-dimensional forms -/

/-- Row e of H times the e-th weight. -/
def scaleRows {E D : Nat} (H : FVec Ideal ⟨2, ![E, D]⟩ .f32) (w : FVec Ideal ⟨1, ![E]⟩ .f32) :
    FVec Ideal ⟨2, ![E, D]⟩ .f32 :=
  fun i => H i * w (ix1 (i 0))

/-- Bias d added to column d. -/
def addBias {N D : Nat} (A : FVec Ideal ⟨2, ![N, D]⟩ .f32) (b : FVec Ideal ⟨1, ![D]⟩ .f32) :
    FVec Ideal ⟨2, ![N, D]⟩ .f32 :=
  fun i => A i + b (ix1 (i 1))

/-- Bias d added to column d, then the maximum with zero. -/
def reluBias {N D : Nat} (A : FVec Ideal ⟨2, ![N, D]⟩ .f32) (b : FVec Ideal ⟨1, ![D]⟩ .f32) :
    FVec Ideal ⟨2, ![N, D]⟩ .f32 :=
  fun i => max (A i + b (ix1 (i 1))) (Ideal.ofBits .f32 0x00000000#32)

/-! ## Layout operations read at an index -/

section Layout
variable {α : Type}

/-- A length-E vector reshaped to an E×1 column reads, at (e, u), the vector at e. -/
theorem shapeCast_col_apply {E : ℕ} (x : (⟨1, ![E]⟩ : Shape).Idx → α)
    (h : (⟨1, ![E]⟩ : Shape).ShapeCasts ⟨2, ![E, 1]⟩) (e : Fin E) (u : Fin 1) :
    shapeCast ⟨2, ![E, 1]⟩ x h (ix2 e u) = x (ix1 e) :=
  shapeCast_apply x h _ _ (by
    have hu : u.val = 0 := by omega
    rw [Shape.rowMajor_val_two, Shape.rowMajor_val_one]
    show e.val = e.val * 1 + u.val
    omega)

/-- A length-E vector broadcast along axis 0 of an E×1 column reads, at (e, u), the vector at e. -/
theorem bcast_col_apply {E : ℕ} (x : (⟨1, ![E]⟩ : Shape).Idx → α)
    (h : (⟨1, ![E]⟩ : Shape).BroadcastsInDim ⟨2, ![E, 1]⟩ ![0]) (e : Fin E) (u : Fin 1) :
    broadcastInDim ⟨2, ![E, 1]⟩ ![0] h x (ix2 e u) = x (ix1 e) := by
  refine broadcastInDim_apply ![0] h x (ix2 e u) (ix1 e) fun a => ?_
  match a with
  | ⟨0, _⟩ =>
    show e.val = if E = 1 then 0 else e.val
    split
    · have := e.isLt; omega
    · rfl

/-- An E×1 column broadcast to E×D reads, at (e, d), the column at e. -/
theorem bcast_colwide_apply {E D : ℕ} (x : (⟨2, ![E, 1]⟩ : Shape).Idx → α)
    (h : (⟨2, ![E, 1]⟩ : Shape).BroadcastsInDim ⟨2, ![E, D]⟩ ![0, 1]) (e : Fin E) (d : Fin D) :
    broadcastInDim ⟨2, ![E, D]⟩ ![0, 1] h x (ix2 e d) = x (ix2 e (0 : Fin 1)) := by
  refine broadcastInDim_apply ![0, 1] h x (ix2 e d) (ix2 e (0 : Fin 1)) fun a => ?_
  match a with
  | ⟨0, _⟩ =>
    show e.val = if E = 1 then 0 else e.val
    split
    · have := e.isLt; omega
    · rfl
  | ⟨1, _⟩ => rfl

/-- A length-D vector broadcast along axis 1 of a 1×D row reads, at (u, d), the vector at d. -/
theorem bcast_row_apply {D : ℕ} (x : (⟨1, ![D]⟩ : Shape).Idx → α)
    (h : (⟨1, ![D]⟩ : Shape).BroadcastsInDim ⟨2, ![1, D]⟩ ![1]) (u : Fin 1) (d : Fin D) :
    broadcastInDim ⟨2, ![1, D]⟩ ![1] h x (ix2 u d) = x (ix1 d) := by
  refine broadcastInDim_apply ![1] h x (ix2 u d) (ix1 d) fun a => ?_
  match a with
  | ⟨0, _⟩ =>
    show d.val = if D = 1 then 0 else d.val
    split
    · have := d.isLt; omega
    · rfl

/-- A 1×D row broadcast to N×D reads, at (p, d), the row at d. -/
theorem bcast_rowwide_apply {N D : ℕ} (x : (⟨2, ![1, D]⟩ : Shape).Idx → α)
    (h : (⟨2, ![1, D]⟩ : Shape).BroadcastsInDim ⟨2, ![N, D]⟩ ![0, 1]) (p : Fin N) (d : Fin D) :
    broadcastInDim ⟨2, ![N, D]⟩ ![0, 1] h x (ix2 p d) = x (ix2 (0 : Fin 1) d) := by
  refine broadcastInDim_apply ![0, 1] h x (ix2 p d) (ix2 (0 : Fin 1) d) fun a => ?_
  match a with
  | ⟨0, _⟩ => rfl
  | ⟨1, _⟩ =>
    show d.val = if D = 1 then 0 else d.val
    split
    · have := d.isLt; omega
    · rfl

/-- A scalar broadcast to any shape reads, everywhere, the scalar. -/
theorem bcast_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun a => a.elim0

end Layout

/-! ## The column and one-row forms are the one-dimensional forms -/

theorem scaleByCol_reshape {E D : Nat} (H : FVec Ideal ⟨2, ![E, D]⟩ .f32) (w : FVec Ideal ⟨1, ![E]⟩ .f32)
    (h : (⟨1, ![E]⟩ : Shape).ShapeCasts ⟨2, ![E, 1]⟩) :
    scaleByCol H (shapeCast ⟨2, ![E, 1]⟩ w h) = scaleRows H w := by
  funext i
  obtain ⟨e, d, rfl⟩ : ∃ (e : Fin E) (d : Fin D), i = ix2 e d := ⟨i 0, i 1, eq_ix2 i⟩
  show H (ix2 e d) * shapeCast ⟨2, ![E, 1]⟩ w h (ix2 e (0 : Fin 1)) = H (ix2 e d) * w (ix1 e)
  rw [shapeCast_col_apply]

theorem addRow_reshape {N D : Nat} (A : FVec Ideal ⟨2, ![N, D]⟩ .f32) (b : FVec Ideal ⟨1, ![D]⟩ .f32)
    (h : (⟨1, ![D]⟩ : Shape).ShapeCasts ⟨2, ![1, D]⟩) :
    addRow A (shapeCast ⟨2, ![1, D]⟩ b h) = addBias A b := by
  funext i
  obtain ⟨p, d, rfl⟩ : ∃ (p : Fin N) (d : Fin D), i = ix2 p d := ⟨i 0, i 1, eq_ix2 i⟩
  show A (ix2 p d) + shapeCast ⟨2, ![1, D]⟩ b h (ix2 (0 : Fin 1) d) = A (ix2 p d) + b (ix1 d)
  rw [shapeCast_a_1a_apply]

theorem reluAddRow_reshape {N D : Nat} (A : FVec Ideal ⟨2, ![N, D]⟩ .f32) (b : FVec Ideal ⟨1, ![D]⟩ .f32)
    (h : (⟨1, ![D]⟩ : Shape).ShapeCasts ⟨2, ![1, D]⟩) :
    reluAddRow A (shapeCast ⟨2, ![1, D]⟩ b h) = reluBias A b := by
  funext i
  obtain ⟨p, d, rfl⟩ : ∃ (p : Fin N) (d : Fin D), i = ix2 p d := ⟨i 0, i 1, eq_ix2 i⟩
  show max (A (ix2 p d) + shapeCast ⟨2, ![1, D]⟩ b h (ix2 (0 : Fin 1) d)) _ = max (A (ix2 p d) + b (ix1 d)) _
  rw [shapeCast_a_1a_apply]

/-! ## The host's whole-array operations are the same functions -/

theorem mulf_bcast_eq {E D : Nat} (H : FVec Ideal ⟨2, ![E, D]⟩ .f32) (w : FVec Ideal ⟨1, ![E]⟩ .f32)
    (h1 : (⟨1, ![E]⟩ : Shape).BroadcastsInDim ⟨2, ![E, 1]⟩ ![0])
    (h2 : (⟨2, ![E, 1]⟩ : Shape).BroadcastsInDim ⟨2, ![E, D]⟩ ![0, 1]) :
    mulf H (broadcastInDim ⟨2, ![E, D]⟩ ![0, 1] h2 (broadcastInDim ⟨2, ![E, 1]⟩ ![0] h1 w)) = scaleRows H w := by
  funext i
  obtain ⟨e, d, rfl⟩ : ∃ (e : Fin E) (d : Fin D), i = ix2 e d := ⟨i 0, i 1, eq_ix2 i⟩
  rw [mulf_apply, bcast_colwide_apply, bcast_col_apply]
  rfl

theorem addf_bcast_eq {N D : Nat} (A : FVec Ideal ⟨2, ![N, D]⟩ .f32) (b : FVec Ideal ⟨1, ![D]⟩ .f32)
    (h1 : (⟨1, ![D]⟩ : Shape).BroadcastsInDim ⟨2, ![1, D]⟩ ![1])
    (h2 : (⟨2, ![1, D]⟩ : Shape).BroadcastsInDim ⟨2, ![N, D]⟩ ![0, 1]) :
    addf A (broadcastInDim ⟨2, ![N, D]⟩ ![0, 1] h2 (broadcastInDim ⟨2, ![1, D]⟩ ![1] h1 b)) = addBias A b := by
  funext i
  obtain ⟨p, d, rfl⟩ : ∃ (p : Fin N) (d : Fin D), i = ix2 p d := ⟨i 0, i 1, eq_ix2 i⟩
  rw [addf_apply, bcast_rowwide_apply, bcast_row_apply]
  rfl

theorem max_addf_bcast_eq {N D : Nat} (A : FVec Ideal ⟨2, ![N, D]⟩ .f32) (b : FVec Ideal ⟨1, ![D]⟩ .f32)
    (h1 : (⟨1, ![D]⟩ : Shape).BroadcastsInDim ⟨2, ![1, D]⟩ ![1])
    (h2 : (⟨2, ![1, D]⟩ : Shape).BroadcastsInDim ⟨2, ![N, D]⟩ ![0, 1])
    (h0 : (⟨0, ![]⟩ : Shape).BroadcastsInDim ⟨2, ![N, D]⟩ ![]) :
    maximumf (addf A (broadcastInDim ⟨2, ![N, D]⟩ ![0, 1] h2 (broadcastInDim ⟨2, ![1, D]⟩ ![1] h1 b)))
      (broadcastInDim ⟨2, ![N, D]⟩ ![] h0 (constant (F := Ideal) ⟨0, ![]⟩ .f32 0x00000000#32)) = reluBias A b := by
  funext i
  obtain ⟨p, d, rfl⟩ : ∃ (p : Fin N) (d : Fin D), i = ix2 p d := ⟨i 0, i 1, eq_ix2 i⟩
  rw [maximumf_apply, addf_apply, bcast_rowwide_apply, bcast_row_apply, bcast_scalar_apply]
  rfl

theorem dotGeneral_eq {M K N : Nat} (d : DotDims ⟨2, ![M, K]⟩ ⟨2, ![K, N]⟩ ⟨2, ![M, N]⟩) (hd : PlainDot.IsPlain d)
    (X : FVec Ideal ⟨2, ![M, K]⟩ .f32) (W : FVec Ideal ⟨2, ![K, N]⟩ .f32) :
    Host.dotGeneral d none X W = matProd X W := by
  funext i
  obtain ⟨p, q, rfl⟩ : ∃ (p : Fin M) (q : Fin N), i = ix2 p q := ⟨i 0, i 1, eq_ix2 i⟩
  simp only [Host.dotGeneral]
  exact PlainDot.dotGeneral_plain d hd none _ X W p q

end Cert.Spec

end
-- ==== Proof.RefSide.lean ====
/-
  The reference program's stages are the kernel program's stages, as functions of the seven argument arrays.

  Both programs slice the edge list, gather by source and scatter-add by destination with the same host operations on
  the same index columns, so those stages agree as soon as their operands do.  The dense stages differ only in
  layout: the reference multiplies by the weights broadcast to the full shape and adds each bias broadcast to the full
  shape, and takes its products with the host's dot_general; read at an index these are the row scaling, the bias
  addition (with the maximum with zero between the layers) and the matrix product of the kernel's calls.
-/
import proofs.«102383_j59828894433328_1_alg».proof.Proof.Gen.ReferenceIdeal.Run
import proofs.«102383_j59828894433328_1_alg».proof.Proof.Gen.ReferenceIdeal.Read
import proofs.«102383_j59828894433328_1_alg».proof.Proof.Bridge
import proofs.«102383_j59828894433328_1_alg».proof.Proof.KernelValue

set_option maxRecDepth 16384

noncomputable section

namespace Cert.ReferenceIdeal.RefStages
open Idealize.ShloMosaic Idealize.ShloMosaic.TcCoe Idealize.SL.Sem
open Cert.ReferenceIdeal Cert.ReferenceIdeal.Read

variable (x0 : (⟨S50000x256, .f32⟩ : BufTy).Contents (Elt Ideal)) (x1 : (⟨S2x1600000, .i32⟩ : BufTy).Contents (Elt Ideal))
  (x2 : (⟨S1600000, .f32⟩ : BufTy).Contents (Elt Ideal)) (x3 : (⟨S256x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal))

/-- The reference's two dot_generals have plain dimension numbers. -/
theorem plain1 : PlainDot.IsPlain dot_S50000x256_S256x128_S50000x128_1_0_0_1_n_n := ⟨rfl, rfl, rfl, rfl, rfl, rfl⟩
theorem plain2 : PlainDot.IsPlain dot_S50000x128_S128x64_S50000x64_1_0_0_1_n_n := ⟨rfl, rfl, rfl, rfl, rfl, rfl⟩

/-- Layer 1's dense product. -/
theorem hid1_eq : val_main_v4 (F := Ideal) x0 x3 = Cert.KernelIdeal.Stages.hid1 x0 x3 := by
  unfold val_main_v4 Cert.KernelIdeal.Stages.hid1
  exact Spec.dotGeneral_eq _ plain1 x0 x3

/-- Layer 1's scaled gathered rows. -/
theorem msg1_eq : val_main_v14 (F := Ideal) x0 x1 x2 x3 = Cert.KernelIdeal.Stages.msg1 x0 x1 x2 x3 := by
  unfold val_main_v14 val_main_v13 val_main_v12 val_main_v11 Cert.KernelIdeal.Stages.msg1 Cert.KernelIdeal.Stages.ewCol
  rw [hid1_eq, Spec.mulf_bcast_eq, Spec.scaleByCol_reshape]
  rfl

/-- Layer 1's aggregate. -/
theorem agg1_eq : val_main_v17 (F := Ideal) x0 x1 x2 x3 = Cert.KernelIdeal.Stages.agg1 x0 x1 x2 x3 := by
  unfold val_main_v17 Cert.KernelIdeal.Stages.agg1
  rw [msg1_eq]
  rfl

/-- Layer 2's dense product of the clipped, biased aggregate. -/
theorem hid2_eq : val_main_v22 (F := Ideal) x0 x1 x2 x3 x4 x5 = Cert.KernelIdeal.Stages.hid2 x0 x1 x2 x3 x4 x5 := by
  unfold val_main_v22 val_main_v21 val_main_v20 val_main_v19 val_main_v18 val_main_call0_v0 val_main_call0_cst
    Cert.KernelIdeal.Stages.hid2 Cert.KernelIdeal.Stages.b1Row
  rw [agg1_eq, Spec.max_addf_bcast_eq, Spec.reluAddRow_reshape]
  exact Spec.dotGeneral_eq _ plain2 _ x5

/-- Layer 2's scaled gathered rows. -/
theorem msg2_eq : val_main_v32 (F := Ideal) x0 x1 x2 x3 x4 x5 = Cert.KernelIdeal.Stages.msg2 x0 x1 x2 x3 x4 x5 := by
  unfold val_main_v32 val_main_v31 val_main_v30 val_main_v29 Cert.KernelIdeal.Stages.msg2 Cert.KernelIdeal.Stages.ewCol
  rw [hid2_eq, Spec.mulf_bcast_eq, Spec.scaleByCol_reshape]
  rfl

/-- Layer 2's aggregate. -/
theorem agg2_eq : val_main_v35 (F := Ideal) x0 x1 x2 x3 x4 x5 = Cert.KernelIdeal.Stages.agg2 x0 x1 x2 x3 x4 x5 := by
  unfold val_main_v35 Cert.KernelIdeal.Stages.agg2
  rw [msg2_eq]
  rfl

/-- The result. -/
theorem out_eq : val_main_v38 (F := Ideal) x0 x1 x2 x3 x4 x5 x6 = Cert.KernelIdeal.Stages.out x0 x1 x2 x3 x4 x5 x6 := by
  unfold val_main_v38 val_main_v37 val_main_v36 Cert.KernelIdeal.Stages.out Cert.KernelIdeal.Stages.b2Row
  rw [agg2_eq, Spec.addf_bcast_eq, Spec.addRow_reshape]

end Cert.ReferenceIdeal.RefStages

end
-- ==== Proof.lean ====
/-
  A two-layer graph convolution on 50,000 nodes and 1,600,000 weighted edges, computed by five accelerator calls among
  host gathers and scatter-adds, against the same network written with whole-array host operations.

  Both programs compute, per layer, h = x · W, then for every edge the row of h at the edge's source node times the
  edge's weight, then the sum of those rows at each destination node, then a bias on every row; between the layers
  max(·, 0).  The gather and the scatter-add are the same host operations on the same index columns in both programs.
  The calls tile the dense steps in blocks of rows: a block of the product is the product of a block of rows, a block
  of the scaled or biased array is the scaled or biased block, and the blocks cover every row once.  Over the extended
  reals the narrower format on the way into the multiplier is the identity and a product into a zero accumulator is
  the plain sum over the contracted coordinate, so each call's result array is the reference's corresponding
  whole-array step.  No law beyond reading both sides at an index is needed, and the precondition is never opened.

  The three frames are the generated ones (the reference's is its generated run with the result dropped); the
  idealization rewrote nothing, so it is preserved trivially; the value claim reads the kernel's result buffer off
  the run of its segments, stage by stage, and the reference's off its generated run.
-/
import proofs.«102383_j59828894433328_1_alg».proof.Defs
import proofs.«102383_j59828894433328_1_alg».proof.Proof.Gen.Kernel
import proofs.«102383_j59828894433328_1_alg».proof.Proof.Gen.Kernel.Frame
import proofs.«102383_j59828894433328_1_alg».proof.Proof.Gen.KernelIdeal
import proofs.«102383_j59828894433328_1_alg».proof.Proof.Gen.KernelIdeal.Frame
import proofs.«102383_j59828894433328_1_alg».proof.Proof.Gen.ReferenceIdeal
import proofs.«102383_j59828894433328_1_alg».proof.Proof.Gen.ReferenceIdeal.Run
import proofs.«102383_j59828894433328_1_alg».proof.Proof.Gen.ReferenceIdeal.Read
import proofs.«102383_j59828894433328_1_alg».proof.Proof.Gen.Pre_finite_inputs
import proofs.«102383_j59828894433328_1_alg».proof.Proof.KernelRun
import proofs.«102383_j59828894433328_1_alg».proof.Proof.KernelValue
import proofs.«102383_j59828894433328_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the chain's value at the common argument arrays: the kernel's result buffer by the run of
    its segments read stage by stage, the reference's by its generated run, whose term is the same chain. -/
theorem algebraic : Cert.algebraic_KernelIdeal_ReferenceIdeal := by
  intro m ρ m' ρ' _ hagree
  refine ⟨fun c => Cert.KernelIdeal.Stages.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Stages.out_at10 m ρ c), (h c).2⟩)
      (Cert.KernelIdeal.RunNamed.run_named m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2]
    exact (Cert.ReferenceIdeal.Read.val_main_v38_eq _ _ _ _ _ _ _).trans
      (Cert.ReferenceIdeal.RefStages.out_eq _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
